-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x32 : Shape := ⟨2, ![128, 32]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S128x32 .f32) (main_arg2 : IVec S1600000 32) (main_arg3 : IVec S1600000 32) (main_arg4 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x128 : Shape := ⟨2, ![100000, 128]⟩
abbrev S128x32 : Shape := ⟨2, ![128, 32]⟩
abbrev S1600000 : Shape := ⟨1, ![1600000]⟩
abbrev S100000x32 : Shape := ⟨2, ![100000, 32]⟩
abbrev S10000x128 : Shape := ⟨2, ![10000, 128]⟩
abbrev S10000x32 : Shape := ⟨2, ![10000, 32]⟩
abbrev S1600000x1 : Shape := ⟨2, ![1600000, 1]⟩
abbrev S_ : Shape := ⟨0, ![]⟩
abbrev S1600000x32 : Shape := ⟨2, ![1600000, 32]⟩
abbrev S20000x32 : Shape := ⟨2, ![20000, 32]⟩

abbrev nBuf : Space → Nat
  | .hbm => 23
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x32, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x32, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S1600000x32, .f32⟩
  | .hbm, ⟨17, _⟩ => ⟨S1600000x32, .f32⟩
  | .hbm, ⟨18, _⟩ => ⟨S_, .f32⟩
  | .hbm, ⟨19, _⟩ => ⟨S100000x32, .f32⟩
  | .hbm, ⟨20, _⟩ => ⟨S1600000x1, .i32⟩
  | .hbm, ⟨21, _⟩ => ⟨S100000x32, .f32⟩
  | .hbm, ⟨22, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S20000x32, .f32⟩
  | .local _ .vmem, ⟨6, _⟩ => ⟨S20000x32, .f32⟩
  | .local _ .vmem, ⟨7, _⟩ => ⟨S20000x32, .f32⟩
  | .local _ .vmem, ⟨8, _⟩ => ⟨S20000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  inb_S20000x32_S20000x32_0_0 : ∀ a, (![0, 0] : Fin 2 → Nat) a + S20000x32.size a ≤ S20000x32.size a
  h_S20000x32 : 0 < S20000x32.numel
  shapeCasts_S20000x32_S20000x32 : S20000x32.ShapeCasts S20000x32
  dot_S10000x128_S128x32_S10000x32_1_0_0_1_n_n_wf : DotDims.WF S10000x128 S128x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x32.size a ≤ S100000x32.size a
  hwx1_0 : ∀ i : grid1.Coords, EltTy.bits .f32 = 32 ∨ (Rect.block (s := S100000x32) S20000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x32.size a ≤ S100000x32.size a
  hwx1_1 : ∀ i : grid1.Coords, EltTy.bits .f32 = 32 ∨ (Rect.block (s := S100000x32) S20000x32.size (cc1_transform_1 i) (hinb1_1 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S20000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S20000x32.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x32 : Shape := ⟨2, ![128, 32]⟩
abbrev S1600000 : Shape := ⟨1, ![1600000]⟩
abbrev S100000x32 : Shape := ⟨2, ![100000, 32]⟩
abbrev S1600000x1 : Shape := ⟨2, ![1600000, 1]⟩
abbrev S_ : Shape := ⟨0, ![]⟩
abbrev S1600000x32 : Shape := ⟨2, ![1600000, 32]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x32, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x32, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x32, .f32⟩
  | .hbm, ⟨16, _⟩ => ⟨S1600000x32, .f32⟩
  | .hbm, ⟨17, _⟩ => ⟨S1600000x32, .f32⟩
  | .hbm, ⟨18, _⟩ => ⟨S_, .f32⟩
  | .hbm, ⟨19, _⟩ => ⟨S100000x32, .f32⟩
  | .hbm, ⟨20, _⟩ => ⟨S1600000x1, .i32⟩
  | .hbm, ⟨21, _⟩ => ⟨S100000x32, .f32⟩
  | .hbm, ⟨22, _⟩ => ⟨S_, .f32⟩
  | .hbm, ⟨23, _⟩ => ⟨S100000x32, .f32⟩
  | .hbm, ⟨24, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  dot_S100000x128_S128x32_S100000x32_1_0_0_1_n_n_wf : DotDims.WF S100000x128 S128x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.Product.lean ====
/-
  The first region's result array.

  Each grid point t of the first region loads rows 10000·t … 10000·t + 9999 of the left matrix and the whole right
  matrix, and stores their product as rows 10000·t … of the result. Over the extended reals the rounding of the operands
  on the way into the product is the identity, so entry (p, q) of a block is the sum over k of left (10000·t + p, k) times
  right (k, q): entry (10000·t + p, q) of the product of the two whole matrices. The ten blocks tile the result, which
  therefore ends holding the whole product.
-/
import proofs.«104580_j30339648979444_1_alg».proof.Proof.Gen.KernelIdeal.Frame
import proofs.«104580_j30339648979444_1_alg».proof.Proof.LibMatmul
import Idealize.ShloMosaic.Lib.Pipeline.Value
import Idealize.ShloMosaic.Lib.ValueIdx
import Idealize.ShloMosaic.PureOps.Ideal.Laws

set_option maxRecDepth 16384

noncomputable section

namespace Cert.KernelIdeal.Product

open Cert.KernelIdeal Cert.KernelIdeal.Gen
open Idealize.ShloMosaic Idealize.ShloMosaic.TcCoe Idealize.ShloMosaic.ValueIdx Idealize.SL.Sem
open Idealize.ShloMosaic.Pipeline (Dat)

/-- The product of the whole left matrix with the right matrix. -/
abbrev whole (a : FVec Ideal S100000x128 .f32) (w : FVec Ideal S128x32 .f32) : FVec Ideal S100000x32 .f32 :=
  Host.dotGeneral (DotDims.plain 100000 128 32) none a w

theorem hz : (![0, 0] : Fin 2 → Nat) = fun _ => 0 := funext fun a => by fin_cases a <;> rfl

/-- Entry (p, q) of what a point stores: the sum over k of its left block at (p, k) times its right block at (k, q). -/
theorem stored_apply (x0 : Vec Ideal S10000x128 .f32) (x1 : Vec Ideal S128x32 .f32) (p : Fin 10000) (q : Fin 32) :
    k0_pay1 (F := Ideal) x0 x1 (ix2 p q) = ∑ k : Fin 128, x0 (ix2 p k) * x1 (ix2 k q) := by
  unfold k0_pay1
  exact Cert.Matmul.matmul_plain_apply none _ _ p q

/-- A point's stored block, entry by entry, is the whole product at the rows the point owns: when the left block is rows
    n·10000 … of the left matrix and the right block is the right matrix. -/
theorem stored_eq_whole (a : FVec Ideal S100000x128 .f32) (w : FVec Ideal S128x32 .f32)
    (x0 : Vec Ideal S10000x128 .f32) (x1 : Vec Ideal S128x32 .f32) (n : Nat)
    (h0 : ∀ (y : S10000x128.Idx) (z : S100000x128.Idx), (z 0).val = n * 10000 + (y 0).val → (z 1).val = (y 1).val → x0 y = a z)
    (h1 : ∀ y : S128x32.Idx, x1 y = w y)
    (j : S10000x32.Idx) (i : S100000x32.Idx) (hi0 : (i 0).val = n * 10000 + (j 0).val) (hi1 : (i 1).val = (j 1).val) :
    k0_pay1 (F := Ideal) x0 x1 j = whole a w i := by
  obtain ⟨p, q, rfl⟩ : ∃ (p : Fin 10000) (q : Fin 32), j = ix2 p q := ⟨j 0, j 1, eq_ix2 j⟩
  obtain ⟨r, s, rfl⟩ : ∃ (r : Fin 100000) (s : Fin 32), i = ix2 r s := ⟨i 0, i 1, eq_ix2 i⟩
  obtain rfl : s = q := Fin.ext hi1
  rw [stored_apply]
  show _ = FloatOps.dotGeneral (DotDims.plain 100000 128 32) none .single a w (ix2 r s)
  rw [Cert.Matmul.dotGeneral_plain_apply]
  refine Finset.sum_congr rfl fun k _ => ?_
  rw [h0 (ix2 p k) (ix2 r k) hi0 rfl, h1]

/-- The printed index maps over the grid: the left matrix's and the result's block index is the point, the right matrix's
    block is always the first. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What point t writes back is block t of the whole product of the two matrices as the region finds them. -/
theorem flushed_eq (c : Dev nD) (t : Fin cfg0.N) :
    (dat0 V c).flushed 2 t = ((cfg0.win 2).blk t).view.read (Elt Ideal) (whole (V c main_arg0) (V c main_arg1)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x32) hz]
  obtain ⟨e0, e1, e2, e3, e4, e5⟩ := idx_facts t
  funext j
  rw [View.read_apply]
  show k0_pay1 (F := Ideal) (iblk0 V c 0 t) (iblk0 V c 1 t) j = _
  refine stored_eq_whole (V c main_arg0) (V c main_arg1) (iblk0 V c 0 t) (iblk0 V c 1 t) t.val ?_ ?_ j _ ?_ ?_
  · intro y z hz0 hz1
    unfold iblk0
    rw [View.read_apply]
    show V c main_arg0 _ = V c main_arg0 z
    refine congrArg (V c main_arg0) ?_
    funext a
    apply Fin.ext
    match a with
    | ⟨0, _⟩ => show win0_0.index t (0 : Fin 2) * 10000 + 1 * (y 0).val = (z 0).val; omega
    | ⟨1, _⟩ => show win0_0.index t (1 : Fin 2) * 128 + 1 * (y 1).val = (z 1).val; omega
  · intro y
    unfold iblk0
    rw [View.read_apply]
    show V c main_arg1 _ = V c main_arg1 y
    refine congrArg (V c main_arg1) ?_
    funext a
    apply Fin.ext
    match a with
    | ⟨0, _⟩ => show win0_1.index t (0 : Fin 2) * 128 + 1 * (y 0).val = (y 0).val; omega
    | ⟨1, _⟩ => show win0_1.index t (1 : Fin 2) * 32 + 1 * (y 1).val = (y 1).val; omega
  · show win0_2.index t (0 : Fin 2) * 10000 + 1 * (j 0).val = t.val * 10000 + (j 0).val; omega
  · show win0_2.index t (1 : Fin 2) * 32 + 1 * (j 1).val = (j 1).val; omega

/-- An entry of the result is in point t's block iff each coordinate is in the block's range on its axis. -/
theorem mem_blk (t : Fin cfg0.N) (i : S100000x32.Idx) :
    i ∈ ((cfg0.win 2).blk t).view.set ↔ ∀ a : Fin 2, win0_2.index t a * S10000x32.size a ≤ (i a).val ∧ (i a).val < win0_2.index t a * S10000x32.size a + S10000x32.size a := by
  show i ∈ ((View.whole main_v0).slice (win0_2.rect t)).set ↔ _
  rw [View.set_slice_whole, Rect.mem_set_unit]
  exact Iff.rfl

/-- Every entry of the result is in the block of the point that owns its row: row r belongs to point r / 10000. -/
theorem cover (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  obtain ⟨t, ht⟩ : ∃ t : Fin cfg0.N, t.val = (i 0).val / 10000 := ⟨⟨(i 0).val / 10000, by rw [show cfg0.N = 10 from N_0]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 32 ≤ (i 1).val ∧ (i 1).val < win0_2.index t (1 : Fin 2) * 32 + 32; omega

/-- The result array after the first region: the whole product of the two matrices as the region finds them. -/
theorem array_eq (c : Dev nD) : (dat0 V c).arrAt 2 cfg0.N = whole (V c main_arg0) (V c main_arg1) :=
  (dat0 V c).arrAt_eq_of_cover 2 (whole (V c main_arg0) (V c main_arg1)) (fun t _ => flushed_eq V c t) cover

end

end Cert.KernelIdeal.Product

end
-- ==== Proof.Relu.lean ====
/-
  The second region's result array.

  Each grid point t of the second region loads rows 20000·t … 20000·t + 19999 of its operand and stores, entry by
  entry, the maximum of the loaded entry and zero as the same rows of the result. The stored block is therefore the
  whole-array function "maximum with zero" read at the rows the point owns; the five blocks tile the result, which
  ends holding that function of the operand.
-/
import proofs.«104580_j30339648979444_1_alg».proof.Proof.Gen.KernelIdeal.Frame
import Idealize.ShloMosaic.Lib.Pipeline.Value
import Idealize.ShloMosaic.Lib.ValueIdx

set_option maxRecDepth 16384

noncomputable section

namespace Cert.KernelIdeal.Relu

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]

/-- The maximum with zero, entry by entry, of a whole array. -/
abbrev whole (x : FVec F S100000x32 .f32) : FVec F S100000x32 .f32 :=
  maximumf x (broadcastInDim S100000x32 ![] bcast_S_S100000x32 (constant S_ .f32 0x00000000#32))

theorem hz : (![0, 0] : Fin 2 → Nat) = fun _ => 0 := funext fun a => by fin_cases a <;> rfl

/-- An entry of what a point stores is the maximum with zero of the operand's entry it loaded there. -/
theorem stored_eq_whole (a : FVec F S100000x32 .f32) (x0 : Vec F S20000x32 .f32) (j : S20000x32.Idx) (i : S100000x32.Idx)
    (h0 : x0 j = a i) : k1_pay1 (F := F) x0 j = whole a i := by
  unfold k1_pay1
  rw [shapeCast_self]
  show FloatOps.maximumf (x0 j) _ = FloatOps.maximumf (a i) _
  rw [h0]
  rfl

/-- The printed index maps over the grid: the operand's and the result's block index is the point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

section
variable (V : (c : Dev nD) → (b : Ref sig .tc) → Buf (Elt F) ((c : Thread nD τ).loc b))

/-- What point t writes back is block t of the maximum with zero of the operand as the region finds it. -/
theorem flushed_eq (c : Dev nD) (t : Fin cfg1.N) :
    (dat1 V c).flushed 1 t = ((cfg1.win 1).blk t).view.read (Elt F) (whole (V c main_v13)) := by
  show (cfg1.win 1).cut (grid1.coords t) ((dat1 V c).after 1 t) = _
  rw [after1_1]
  unfold out1_1
  rw [View.canon_unit_zero hz]
  simp only [View.ld_unit_zero (S := S20000x32) hz]
  obtain ⟨e0, e1, e2, e3⟩ := idx_facts t
  funext j
  rw [View.read_apply]
  show k1_pay1 (F := F) (iblk1 V c 0 t) j = _
  refine stored_eq_whole (V c main_v13) (iblk1 V c 0 t) j _ ?_
  unfold iblk1
  rw [View.read_apply]
  show V c main_v13 _ = V c main_v13 _
  refine congrArg (V c main_v13) ?_
  funext a
  apply Fin.ext
  match a with
  | ⟨0, _⟩ => show win1_0.index t (0 : Fin 2) * 20000 + 1 * (j 0).val = win1_1.index t (0 : Fin 2) * 20000 + 1 * (j 0).val; omega
  | ⟨1, _⟩ => show win1_0.index t (1 : Fin 2) * 32 + 1 * (j 1).val = win1_1.index t (1 : Fin 2) * 32 + 1 * (j 1).val; omega

/-- An entry of the result is in point t's block iff each coordinate is in the block's range on its axis. -/
theorem mem_blk (t : Fin cfg1.N) (i : S100000x32.Idx) :
    i ∈ ((cfg1.win 1).blk t).view.set ↔ ∀ a : Fin 2, win1_1.index t a * S20000x32.size a ≤ (i a).val ∧ (i a).val < win1_1.index t a * S20000x32.size a + S20000x32.size a := by
  show i ∈ ((View.whole main_v14).slice (win1_1.rect t)).set ↔ _
  rw [View.set_slice_whole, Rect.mem_set_unit]
  exact Iff.rfl

/-- Every entry of the result is in the block of the point that owns its row: row r belongs to point r / 20000. -/
theorem cover (i : S100000x32.Idx) : ∃ t : Fin cfg1.N, (cfg1.win 1).flush t = true ∧ i ∈ ((cfg1.win 1).blk t).view.set := by
  have hi0 : (i 0).val < 100000 := (i 0).isLt
  have hi1 : (i 1).val < 32 := (i 1).isLt
  obtain ⟨t, ht⟩ : ∃ t : Fin cfg1.N, t.val = (i 0).val / 20000 := ⟨⟨(i 0).val / 20000, by rw [show cfg1.N = 5 from N_1]; omega⟩, rfl⟩
  obtain ⟨e0, e1, e2, e3⟩ := idx_facts t
  refine ⟨t, flush1_1 t, ?_⟩
  rw [mem_blk]
  intro a
  match a with
  | ⟨0, _⟩ => show win1_1.index t (0 : Fin 2) * 20000 ≤ (i 0).val ∧ (i 0).val < win1_1.index t (0 : Fin 2) * 20000 + 20000; omega
  | ⟨1, _⟩ => show win1_1.index t (1 : Fin 2) * 32 ≤ (i 1).val ∧ (i 1).val < win1_1.index t (1 : Fin 2) * 32 + 32; omega

/-- The result array after the second region: the maximum with zero of the operand as the region finds it. -/
theorem array_eq (c : Dev nD) : (dat1 V c).arrAt 1 cfg1.N = whole (V c main_v13) :=
  (dat1 V c).arrAt_eq_of_cover 1 (whole (V c main_v13)) (fun t _ => flushed_eq V c t) cover

end

end Cert.KernelIdeal.Relu

end
-- ==== Proof.Between.lean ====
/-
  The host operations between the two regions.

  From the first region's result `support` and the three edge arrays the host computes, in sixteen operations, the
  weighted messages and their sum by destination row: negative column indices are wrapped by the number of rows, the
  rows of `support` named by the columns are gathered, each is scaled by its edge's value, and the scaled rows are added
  into a zero array at the rows the edge's row index names. The second region's operand is that one function of the four
  arrays, whatever the buffers hold when the stretch is entered.
-/
import proofs.«104580_j30339648979444_1_alg».proof.Proof.Gen.KernelIdeal.Launch
import Idealize.ShloMosaic.Lib.StableHlo.Run

noncomputable section

namespace Cert.KernelIdeal.Between

open Cert.KernelIdeal Cert.KernelIdeal.Gen
open Idealize.ShloMosaic Idealize.ShloMosaic.TcCoe Idealize.SL.Sem Idealize.ShloMosaic.StableHlo

variable {F : FTy → Type} [FloatOps F]

/-- The sum by destination row of the gathered rows of `support`, each scaled by its edge's value. -/
def edgeSum (support : FVec F S100000x32 .f32) (row col : IVec S1600000 32) (val : FVec F S1600000 .f32) : FVec F S100000x32 .f32 :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 row)
    (mulf (broadcastInDim S1600000x32 ![0, 1] bcast_S1600000x1_S1600000x32_0_1 (broadcastInDim S1600000x1 ![0] bcast_S1600000_S1600000x1_0 val))
      (Host.gather gather_S100000x32_S1600000x1_S1600000x32_1_0_n_n_0_1_132 support
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- After the stretch, the second region's operand holds `edgeSum` of what the first region's result and the edge arrays
    held when the stretch was entered. -/
theorem after_operand (W : Valuation τ sig (Elt F)) :
    StableHlo.after (hostOps1 (F := F)) W (Proc.devRef .tc main_v13)
      = edgeSum (W (Proc.devRef .tc main_v0)) (W (Proc.devRef .tc main_arg2)) (W (Proc.devRef .tc main_arg3)) (W (Proc.devRef .tc main_arg4)) := by
  unfold edgeSum
  after_results

end Cert.KernelIdeal.Between

end
-- ==== Proof.Whole.lean ====
/-
  The kernel program's result as one function of its arguments.

  The run leaves in the result buffer what the second region's write-backs leave; that is the maximum with zero of the
  second region's operand, which the host stretch between the regions computed from the first region's result — the
  product of the two matrices — and the three edge arrays, none of which anything wrote since the launch.
-/
import proofs.«104580_j30339648979444_1_alg».proof.Proof.KernelRun
import proofs.«104580_j30339648979444_1_alg».proof.Proof.Product
import proofs.«104580_j30339648979444_1_alg».proof.Proof.Relu
import proofs.«104580_j30339648979444_1_alg».proof.Proof.Between

set_option maxRecDepth 16384

noncomputable section

namespace Cert.KernelIdeal.Whole

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The maximum with zero of the edge sum over the product of the two matrices. -/
abbrev result (a : FVec Ideal S100000x128 .f32) (w : FVec Ideal S128x32 .f32) (row col : IVec S1600000 32) (val : FVec Ideal S1600000 .f32) :
    FVec Ideal S100000x32 .f32 :=
  Relu.whole (Between.edgeSum (Product.whole a w) row col val)

/-- When the host stretch is entered, the first region's result holds the product of the two argument matrices. -/
theorem support_eq (c : Dev nD) :
    W1 m ρ c (Proc.devRef .tc main_v0) = Product.whole (m ((c.tc : Thread nD τ).loc main_arg0)) (m ((c.tc : Thread nD τ).loc main_arg1)) :=
  (W1_arr m ρ c 2).trans (Product.array_eq (V0 m ρ) c)

/-- The edge arrays are no window of the first region: they are as launched. -/
theorem row_eq (c : Dev nD) : W1 m ρ c (Proc.devRef .tc main_arg2) = m ((c.tc : Thread nD τ).loc main_arg2) :=
  W1_of_ne m ρ c main_arg2 (by decide)
theorem col_eq (c : Dev nD) : W1 m ρ c (Proc.devRef .tc main_arg3) = m ((c.tc : Thread nD τ).loc main_arg3) :=
  W1_of_ne m ρ c main_arg3 (by decide)
theorem val_eq (c : Dev nD) : W1 m ρ c (Proc.devRef .tc main_arg4) = m ((c.tc : Thread nD τ).loc main_arg4) :=
  W1_of_ne m ρ c main_arg4 (by decide)

/-- The last boundary's contents at the result buffer, as a function of the arguments. -/
theorem last_eq (c : Dev nD) :
    W3 m ρ c (Proc.devRef .tc main_v14)
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  refine (W3_arr m ρ c 1).trans ((Relu.array_eq (V2 m ρ) c).trans ?_)
  refine congrArg Relu.whole ?_
  refine (Between.after_operand (W1 m ρ c)).trans ?_
  rw [support_eq, row_eq, col_eq, val_eq]

/-- Every weakly fair execution of the kernel program terminates with the result buffer at `result` of the arguments and
    the arguments as launched. -/
theorem run : θ_run defs (onTc (τ := τ) (main (F := Ideal))) ⟨m, fun _ => 0, ρ⟩ (fun r => ∀ c : Dev nD,
      r.2.mem ((c.tc : Thread nD τ).loc main_v14)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (last_eq m ρ c), (h c).2⟩) (Named.run m ρ)

end Cert.KernelIdeal.Whole

end
-- ==== Proof.Bridge.lean ====
/-
  The reference's term is the kernel program's function.

  The reference multiplies the two whole matrices, runs the same sixteen host operations on the product and the edge
  arrays, and takes the maximum with zero. The kernel program's function is spelt with its own program's shape names and
  dimension records, which are the reference's, field for field: the two terms are one.
-/
import proofs.«104580_j30339648979444_1_alg».proof.ReferenceIdeal
import proofs.«104580_j30339648979444_1_alg».proof.Proof.Gen.ReferenceIdeal
import proofs.«104580_j30339648979444_1_alg».proof.Proof.Product
import proofs.«104580_j30339648979444_1_alg».proof.Proof.Relu
import proofs.«104580_j30339648979444_1_alg».proof.Proof.Between

noncomputable section

namespace Cert.ReferenceIdeal.Bridge

open Cert.ReferenceIdeal Cert.ReferenceIdeal.Gen
open Idealize.ShloMosaic Idealize.ShloMosaic.TcCoe Idealize.SL.Sem

/-- The reference's product of the two whole matrices is the first region's result: one dimension record. -/
theorem product_eq (a : FVec Ideal S100000x128 .f32) (w : FVec Ideal S128x32 .f32) :
    Host.dotGeneral dot_S100000x128_S128x32_S100000x32_1_0_0_1_n_n none a w = Cert.KernelIdeal.Product.whole a w := rfl

/-- The reference's operations after its product — the edge sum, then the maximum with zero — are the kernel program's
    host stretch and second region, at any float values. -/
theorem tail_eq {F : FTy → Type} [FloatOps F] (s : FVec F S100000x32 .f32) (row col : IVec S1600000 32) (val : FVec F S1600000 .f32) :
    maximumf (Host.scatterAdd scatter_S100000x32_S1600000x1_S1600000x32_1_0_0_1 (broadcastInDim S100000x32 ![] bcast_S_S100000x32 (constant S_ .f32 0x00000000#32)) (broadcastInDim S1600000x1 ![0] bcast_S1600000_S1600000x1_0 row) (mulf (broadcastInDim S1600000x32 ![0, 1] bcast_S1600000x1_S1600000x32_0_1 (broadcastInDim S1600000x1 ![0] bcast_S1600000_S1600000x1_0 val)) (Host.gather gather_S100000x32_S1600000x1_S1600000x32_1_0_n_n_0_1_132 s (broadcastInDim S1600000x1 ![0] bcast_S1600000_S1600000x1_0 (select (cmpi .slt col (broadcastInDim S1600000 ![] bcast_S_S1600000 (constantI S_ 32 0#32))) (addi col (broadcastInDim S1600000 ![] bcast_S_S1600000 (constantI S_ 32 100000#32))) col))))) (broadcastInDim S100000x32 ![] bcast_S_S100000x32 (constant S_ .f32 0x00000000#32))
      = Cert.KernelIdeal.Relu.whole (Cert.KernelIdeal.Between.edgeSum s row col val) := rfl

end Cert.ReferenceIdeal.Bridge

end
-- ==== Proof.lean ====
/-
  A two-layer graph convolution step: project the node features, sum the projected rows along weighted edges, clamp at zero.

  The kernel program computes `support = seq · weight` in a first region, ten row blocks of 10000 rows each, the operands
  rounded to bf16 on the way into the product; the host then gathers the rows of `support` named by the edges' columns,
  scales each by its edge's value and adds it into a zero array at the edge's row; a second region takes the maximum with
  zero, five row blocks of 20000 rows each. The reference computes the same with one whole matrix product on the host and
  a host maximum.

  Over the extended reals the rounding to bf16 is the identity and a block of the first region's product is the whole
  product read at the block's rows (both are the sum over the contracted axis of left entry times right entry), so the
  first region's result is the reference's product. The host operations between are the same operations in both
  programs, and the second region's blockwise maximum with zero is the reference's whole-array maximum with zero. So
  both programs end with the result at one function of the arguments: `Cert.KernelIdeal.Whole.result`.

  The three frames: the kernel program's at either instance by its launch over its two regions and the host stretch
  between them; the reference's is its run with the result dropped. No rewrite was applied in idealizing the kernel
  program, so nothing is owed for that conjunct.
-/
import proofs.«104580_j30339648979444_1_alg».proof.Defs
import proofs.«104580_j30339648979444_1_alg».proof.Proof.Gen.Kernel
import proofs.«104580_j30339648979444_1_alg».proof.Proof.Gen.Kernel.Frame
import proofs.«104580_j30339648979444_1_alg».proof.Proof.Gen.KernelIdeal
import proofs.«104580_j30339648979444_1_alg».proof.Proof.Gen.KernelIdeal.Frame
import proofs.«104580_j30339648979444_1_alg».proof.Proof.Gen.ReferenceIdeal
import proofs.«104580_j30339648979444_1_alg».proof.Proof.Gen.ReferenceIdeal.Run
import proofs.«104580_j30339648979444_1_alg».proof.Proof.Gen.Pre_finite_inputs
import proofs.«104580_j30339648979444_1_alg».proof.Proof.Whole
import proofs.«104580_j30339648979444_1_alg».proof.Proof.Bridge

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel program ends with its result at
    `Cert.KernelIdeal.Whole.result` of its arguments, and the reference at its own term of its arguments — the same
    function, once the arguments are identified. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4, Cert.ReferenceIdeal.Bridge.product_eq]
  exact Cert.ReferenceIdeal.Bridge.tail_eq _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
